-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x4096 : Shape := ⟨2, ![8192, 4096]⟩
abbrev S4096x4096 : Shape := ⟨2, ![4096, 4096]⟩
abbrev S4096 : Shape := ⟨1, ![4096]⟩
abbrev S_ : Shape := ⟨0, ![]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S4096 : S_.BroadcastsInDim S4096 (![] : Fin 0 → Fin S4096.rank)
  reducesTo_S4096_S_d0 : S4096.ReducesTo [0] S_

variable [Facts]

def fn {F : FTy → Type} [FloatOps F] (main_arg0 : FVec F S8192x4096 .f32) (main_arg1 : FVec F S4096x4096 .f32) (main_arg2 : FVec F S4096 .f32) : IVec S_ 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_c : IVec S_ 1 := constantI S_ 1 1#1
  let main_v3 : IVec S_ 1 := (fun x v => Host.reduce IntOp.andi x v reducesTo_S8192x4096_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  main_v13
-- ==== Kernel.lean ====
abbrev S8192x4096 : Shape := ⟨2, ![8192, 4096]⟩
abbrev S4096x4096 : Shape := ⟨2, ![4096, 4096]⟩
abbrev S4096 : Shape := ⟨1, ![4096]⟩
abbrev S1x4096 : Shape := ⟨2, ![1, 4096]⟩
abbrev S512x4096 : Shape := ⟨2, ![512, 4096]⟩
abbrev S1024x4096 : Shape := ⟨2, ![1024, 4096]⟩
abbrev S1x1024 : Shape := ⟨2, ![1, 1024]⟩
abbrev S512x1024 : Shape := ⟨2, ![512, 1024]⟩

abbrev nBuf : Space → Nat
  | .hbm => 9
  | .vmem => 8
  | .smem => 0
  | _ => 0

abbrev bufTy : (tb : Table) → Fin (tcTables nBuf tb) → BufTy
  | .hbm, ⟨0, _⟩ => ⟨S8192x4096, .f32⟩
  | .hbm, ⟨1, _⟩ => ⟨S4096x4096, .f32⟩
  | .hbm, ⟨2, _⟩ => ⟨S4096, .f32⟩
  | .hbm, ⟨3, _⟩ => ⟨S4096x4096, .f32⟩
  | .hbm, ⟨4, _⟩ => ⟨S4096x4096, .bf16⟩
  | .hbm, ⟨5, _⟩ => ⟨S4096, .f32⟩
  | .hbm, ⟨6, _⟩ => ⟨S1x4096, .f32⟩
  | .hbm, ⟨7, _⟩ => ⟨S8192x4096, .bf16⟩
  | .hbm, ⟨8, _⟩ => ⟨S8192x4096, .f32⟩
  | .local _ .vmem, ⟨0, _⟩ => ⟨S512x4096, .bf16⟩
  | .local _ .vmem, ⟨1, _⟩ => ⟨S512x4096, .bf16⟩
  | .local _ .vmem, ⟨2, _⟩ => ⟨S1024x4096, .bf16⟩
  | .local _ .vmem, ⟨3, _⟩ => ⟨S1024x4096, .bf16⟩
  | .local _ .vmem, ⟨4, _⟩ => ⟨S1x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![16, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  bitsLt_bf16_f32 : FTy.bits .bf16 < FTy.bits .f32
  bcast_S4096_S1x4096_1 : S4096.BroadcastsInDim S1x4096 (![1] : Fin 1 → Fin S1x4096.rank)
  inb_S512x4096_S512x4096_0_0 : ∀ a, (![0, 0] : Fin 2 → Nat) a + S512x4096.size a ≤ S512x4096.size a
  h_S512x4096 : 0 < S512x4096.numel
  shapeCasts_S512x4096_S512x4096 : S512x4096.ShapeCasts S512x4096
  inb_S1024x4096_S1024x4096_0_0 : ∀ a, (![0, 0] : Fin 2 → Nat) a + S1024x4096.size a ≤ S1024x4096.size a
  h_S1024x4096 : 0 < S1024x4096.numel
  shapeCasts_S1024x4096_S1024x4096 : S1024x4096.ShapeCasts S1024x4096
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S512x1024 : S1x1024.Broadcasts S512x1024
  inb_S512x1024_S512x1024_0_0 : ∀ a, (![0, 0] : Fin 2 → Nat) a + S512x1024.size a ≤ S512x1024.size a
  h_S512x1024 : 0 < S512x1024.numel
  dot_S512x4096_S1024x4096_S512x1024_1_1_0_0_n_n_wf : DotDims.WF S512x4096 S1024x4096 S512x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x4096.size a ≤ S8192x4096.size a
  hwx0_0 : ∀ i : grid0.Coords, EltTy.bits .bf16 = 32 ∨ (Rect.block (s := S8192x4096) S512x4096.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x4096.size a ≤ S4096x4096.size a
  hwx0_1 : ∀ i : grid0.Coords, EltTy.bits .bf16 = 32 ∨ (Rect.block (s := S4096x4096) S1024x4096.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x4096.size a
  hwx0_2 : ∀ i : grid0.Coords, EltTy.bits .f32 = 32 ∨ (Rect.block (s := S1x4096) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x1024.size a ≤ S8192x4096.size a
  hwx0_3 : ∀ i : grid0.Coords, EltTy.bits .f32 = 32 ∨ (Rect.block (s := S8192x4096) S512x1024.size (cc0_transform_3 i) (hinb0_3 i)).WholeWords (EltTy.packing .f32)

variable [Facts₀]

def dot_S512x4096_S1024x4096_S512x1024_1_1_0_0_n_n : DotDims S512x4096 S1024x4096 S512x1024 where
  lhsContracting := [1]
  rhsContracting := [1]
  lhsNonContracting := [0]
  rhsNonContracting := [0]
  lhsBatch := []
  rhsBatch := []
  wf := dot_S512x4096_S1024x4096_S512x1024_1_1_0_0_n_n_wf

abbrev win0_0 : Pipeline.Window sig grid0 :=
  Pipeline.Window.ofSpec (Memref.whole main_v4) S512x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1024x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v3) S1x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v5) S512x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S8192x4096 : Shape := ⟨2, ![8192, 4096]⟩
abbrev S4096x4096 : Shape := ⟨2, ![4096, 4096]⟩
abbrev S4096 : Shape := ⟨1, ![4096]⟩
abbrev S1x4096 : Shape := ⟨2, ![1, 4096]⟩

abbrev nBuf : Space → Nat
  | .hbm => 9
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S4096x4096, .f32⟩
  | .hbm, ⟨2, _⟩ => ⟨S4096, .f32⟩
  | .hbm, ⟨3, _⟩ => ⟨S4096x4096, .f32⟩
  | .hbm, ⟨4, _⟩ => ⟨S4096, .f32⟩
  | .hbm, ⟨5, _⟩ => ⟨S8192x4096, .f32⟩
  | .hbm, ⟨6, _⟩ => ⟨S1x4096, .f32⟩
  | .hbm, ⟨7, _⟩ => ⟨S8192x4096, .f32⟩
  | .hbm, ⟨8, _⟩ => ⟨S8192x4096, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]

class Facts₀ : Prop where
  bcast_S4096_S1x4096_1 : S4096.BroadcastsInDim S1x4096 (![1] : Fin 1 → Fin S1x4096.rank)
  bcast_S1x4096_S8192x4096_0_1 : S1x4096.BroadcastsInDim S8192x4096 (![0, 1] : Fin 2 → Fin S8192x4096.rank)
  dot_S8192x4096_S4096x4096_S8192x4096_1_1_0_0_n_n_wf : DotDims.WF S8192x4096 S4096x4096 S8192x4096 [1] [1] [0] [0] [] []

variable [Facts₀]

def dot_S8192x4096_S4096x4096_S8192x4096_1_1_0_0_n_n : DotDims S8192x4096 S4096x4096 S8192x4096 where
  lhsContracting := [1]
  rhsContracting := [1]
  lhsNonContracting := [0]
  rhsNonContracting := [0]
  lhsBatch := []
  rhsBatch := []
  wf := dot_S8192x4096_S4096x4096_S8192x4096_1_1_0_0_n_n_wf

class Facts : Prop extends Facts₀ where

variable [Facts]
-- ==== Proof.Spec.lean ====
/-
  The result as ONE function of the three argument arrays, over the extended reals.

  With `x` of shape [8192, 4096], `w` of shape [4096, 4096] and `b` of shape [4096], entry (n, o) of the result is

      ∑ k, x (n, k) * sign (w (o, k))  +  sign (b o):

  row `n` of `x` against row `o` of the sign-binarized weights (a linear layer: `x` times the binarized weights
  transposed), plus the binarized bias of column `o`. Nothing here mentions a program; both programs are shown to
  compute this function.
-/
import Idealize.ShloMosaic.Lib.ValueIdx
import Idealize.ShloMosaic.PureOps.Ideal.Laws

noncomputable section

open scoped BigOperators

namespace Cert.SignLinear

open Idealize.ShloMosaic Idealize.ShloMosaic.ValueIdx

/-- The shapes of the activations (and of the result), of the weights and of the bias. -/
abbrev Sx : Shape := ⟨2, ![8192, 4096]⟩
abbrev Sw : Shape := ⟨2, ![4096, 4096]⟩
abbrev Sb : Shape := ⟨1, ![4096]⟩

/-- Entry (n, o): row `n` of the activations against row `o` of the binarized weights, plus the binarized bias at `o`. -/
def entry (x : Sx.Idx → EReal) (w : Sw.Idx → EReal) (b : Sb.Idx → EReal) (n : Fin 8192) (o : Fin 4096) : EReal :=
  (∑ k : Fin 4096, x (ix2 n k) * Ideal.sign (w (ix2 o k))) + Ideal.sign (b (ix1 o))

/-- The whole result array. -/
def result (x : Sx.Idx → EReal) (w : Sw.Idx → EReal) (b : Sb.Idx → EReal) : Sx.Idx → EReal :=
  fun i => entry x w b (i 0) (i 1)

/-- The result at an index whose coordinates are known by value. -/
theorem result_apply (x : Sx.Idx → EReal) (w : Sw.Idx → EReal) (b : Sb.Idx → EReal) (i : Sx.Idx)
    (n : Fin 8192) (o : Fin 4096) (h0 : (i 0).val = n.val) (h1 : (i 1).val = o.val) :
    result x w b i = entry x w b n o := by
  have e0 : (i 0 : Fin 8192) = n := Fin.ext h0
  have e1 : (i 1 : Fin 4096) = o := Fin.ext h1
  show entry x w b (i 0) (i 1) = _
  rw [e0, e1]

end Cert.SignLinear

end
-- ==== Proof.RefValue.lean ====
/-
  The reference computes the specification.

  Its six host operations, read at an index (n, o) one at a time: the product `x · sign(w)` contracted on the last axis of
  both operands is the sum over `k` of `x (n, k) * sign (w (o, k))`; the bias is binarized, given a unit leading axis and
  then broadcast along the rows, so at (n, o) it reads `sign (b o)`; the last operation adds the two. That is
  `Cert.SignLinear.entry` term for term: no algebra is needed on this side.
-/
import proofs.«119907_j29205777612937_1_alg».proof.Proof.Gen.ReferenceIdeal.Read
import proofs.«119907_j29205777612937_1_alg».proof.Proof.Spec

noncomputable section

open scoped BigOperators

namespace Cert.SignLinear.Ref

open Idealize.ShloMosaic Idealize.ShloMosaic.ValueIdx
open Cert.ReferenceIdeal Cert.ReferenceIdeal.Read Cert.SignLinear

/-- The left operand of the product at output (n, o) and contracted coordinate `k` is read at (n, k). -/
theorem left_index (n : Fin 8192) (o k : Fin 4096) : lidx_main_v2 (ix2 n o) k = ix2 n k :=
  funext fun a => Fin.ext (by match a with | ⟨0, _⟩ => rfl | ⟨1, _⟩ => rfl)

/-- The right operand is read at (o, k): row `o` of the binarized weights. -/
theorem right_index (n : Fin 8192) (o k : Fin 4096) : ridx_main_v2 (ix2 n o) k = ix2 o k :=
  funext fun a => Fin.ext (by match a with | ⟨0, _⟩ => rfl | ⟨1, _⟩ => rfl)

/-- Through the two broadcasts the bias at output (n, o) is read at `o`. -/
theorem bias_index (n : Fin 8192) (o : Fin 4096) : idx_main_v3 (idx_main_v4 (ix2 n o)) = ix1 o :=
  funext fun a => Fin.ext (by match a with | ⟨0, _⟩ => rfl)

/-- The reference's last stage, as a function of the three arguments, is the specification. -/
theorem reference_eq (x : (⟨S8192x4096, .f32⟩ : BufTy).Contents (Elt Ideal))
    (w : (⟨S4096x4096, .f32⟩ : BufTy).Contents (Elt Ideal)) (b : (⟨S4096, .f32⟩ : BufTy).Contents (Elt Ideal)) :
    val_main_v5 (F := Ideal) x w b = result x w b := by
  funext i
  obtain ⟨n, o, rfl⟩ : ∃ (n : Fin 8192) (o : Fin 4096), i = ix2 n o := ⟨i 0, i 1, eq_ix2 i⟩
  rw [val_main_v5_apply, val_main_v2_apply, val_main_v4_apply, val_main_v3_apply, val_main_v1_apply, bias_index]
  simp only [val_main_v0_apply, left_index, right_index, Ideal.addf_def, Ideal.hostUnary_sign_def]
  rfl

end Cert.SignLinear.Ref

end
-- ==== Proof.LibDot.lean ====
/-
  Matrix products with ONE contracted axis and no batch axis, read at an entry at the ideal values, for any dimension
  numbers record whose axis lists are the stated ones (a printed record satisfies each hypothesis by `rfl`).

  With the accumulator the zero constant, the product at entry (a, b) is the sum over the contracted coordinate `c` of
  the left operand's entry times the right operand's entry; which coordinate of each operand `c` runs over is what the
  three forms below differ in: rows by columns (`_10`), the left operand transposed against a right operand contracted
  on its last axis (`_01`), and both operands contracted on their first axis (`_00`).
  Also: a non-contracting axis of either operand reads the output index, and the bf16 zero pattern is the real zero.
-/
import Idealize.ShloMosaic.Lib.ValueIdx
import Idealize.ShloMosaic.PureOps.Ideal.Laws

noncomputable section

open scoped BigOperators

namespace Cert.LibDot

open Idealize.ShloMosaic Idealize.ShloMosaic.ValueIdx

/-- The bf16 pattern of all zero bits is the number zero. -/
theorem ofBits_zero_bf16 : Ideal.ofBits .bf16 0x0000#16 = 0 := by simp [Ideal.ofBits, Ideal.ieee]

section Axes
variable {sl sr so : Shape} (d : DotDims sl sr so)

/-- With no batch axis and one non-contracting axis on the left, that axis of the left operand reads the output's
    first coordinate. -/
theorem lhsIdx_val_non {nl : Fin sl.rank} (hb : d.lhsBatch = []) (hn : d.lhsNonContracting = [nl]) (j : so.Idx)
    (k : d.contr.Idx) (h0 : 0 < so.rank) : (d.lhsIdx j k nl).val = (j ⟨0, h0⟩).val := by
  have hnb : nl ∉ d.lhsBatch := by rw [hb]; exact List.not_mem_nil
  have hmem : nl ∈ d.lhsNonContracting := by rw [hn]; exact List.mem_singleton.mpr rfl
  unfold DotDims.lhsIdx
  rw [dif_neg hnb, dif_pos hmem]
  simp only [Fin.val_cast]
  have key : ∀ (p q : Nat) (hp : p < so.rank) (hq : q < so.rank), p = q → (j ⟨p, hp⟩).val = (j ⟨q, hq⟩).val :=
    fun p q hp hq h => by subst h; rfl
  exact key _ _ _ _ (by simp [hb, hn])

/-- With no batch axis and one non-contracting axis on each side, the right operand's non-contracting axis reads the
    output's second coordinate. -/
theorem rhsIdx_val_non {nl : Fin sl.rank} {nr : Fin sr.rank} (hlb : d.lhsBatch = []) (hrb : d.rhsBatch = [])
    (hln : d.lhsNonContracting = [nl]) (hn : d.rhsNonContracting = [nr]) (j : so.Idx)
    (k : d.contr.Idx) (h1 : 1 < so.rank) : (d.rhsIdx j k nr).val = (j ⟨1, h1⟩).val := by
  have hnb : nr ∉ d.rhsBatch := by rw [hrb]; exact List.not_mem_nil
  have hmem : nr ∈ d.rhsNonContracting := by rw [hn]; exact List.mem_singleton.mpr rfl
  unfold DotDims.rhsIdx
  rw [dif_neg hnb, dif_pos hmem]
  simp only [Fin.val_cast]
  have key : ∀ (p q : Nat) (hp : p < so.rank) (hq : q < so.rank), p = q → (j ⟨p, hp⟩).val = (j ⟨q, hq⟩).val :=
    fun p q hp hq h => by subst h; rfl
  exact key _ _ _ _ (by simp [hlb, hln, hn])

end Axes

/-- Rows by columns: an `M × K` by a `K × N` operand, the left contracted on its last axis and the right on its
    first. -/
theorem matmul_10_zero_apply {M K N : Nat} {φ₁ φ₂ : FTy} (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (A : FVec Ideal ⟨2, ![M, K]⟩ φ₁) (B : FVec Ideal ⟨2, ![K, N]⟩ φ₂)
    (a : Fin M) (b : Fin N) :
    matmul (F := Ideal) d prec A B (constant ⟨2, ![M, N]⟩ .f32 0x00000000#32) (ix2 a b)
      = ∑ c : Fin K, A (ix2 a c) * B (ix2 c b) := by
  have hr : d.contr.rank = 1 := by rw [d.rank_contr, hlc]; rfl
  have hs : d.contr.size ⟨0, by omega⟩ = K := by
    rw [d.size_contr 0 (by rw [hlc]; exact Nat.one_pos)]; simp [hlc]
  show FloatOps.matmul _ prec A B _ (ix2 a b) = _
  rw [Ideal.matmul_constant_zero_apply, ← Equiv.sum_comp (contrEquiv1 d K hr hs).symm]
  refine Finset.sum_congr rfl fun c _ => ?_
  have c2 := contrEquiv1_symm_val d K hr hs c
  have l0 := lhsIdx_val_non d hlb hln (ix2 a b) ((contrEquiv1 d K hr hs).symm c) Nat.zero_lt_two
  have l1 := (d.lhsIdx_val_of_single hlc (ix2 a b) ((contrEquiv1 d K hr hs).symm c)).trans c2
  have r0 := (d.rhsIdx_val_of_single hrc (ix2 a b) ((contrEquiv1 d K hr hs).symm c)).trans c2
  have r1 := rhsIdx_val_non d hlb hrb hln hrn (ix2 a b) ((contrEquiv1 d K hr hs).symm c) Nat.one_lt_two
  have l2 : d.lhsIdx (ix2 a b) ((contrEquiv1 d K hr hs).symm c) = ix2 a c := by
    funext ax; apply Fin.ext
    match ax with
    | ⟨0, _⟩ => exact l0
    | ⟨1, _⟩ => exact l1
  have r2 : d.rhsIdx (ix2 a b) ((contrEquiv1 d K hr hs).symm c) = ix2 c b := by
    funext ax; apply Fin.ext
    match ax with
    | ⟨0, _⟩ => exact r0
    | ⟨1, _⟩ => exact r1
  rw [l2, r2]

/-- A `K × M` left operand contracted on its first axis against an `N × K` right operand contracted on its last. -/
theorem matmul_01_zero_apply {M K N : Nat} {φ₁ φ₂ : FTy} (d : DotDims ⟨2, ![K, M]⟩ ⟨2, ![N, K]⟩ ⟨2, ![M, N]⟩)
    (hlc : d.lhsContracting = [0]) (hrc : d.rhsContracting = [1]) (hln : d.lhsNonContracting = [1])
    (hrn : d.rhsNonContracting = [0]) (hlb : d.lhsBatch = []) (hrb : d.rhsBatch = [])
    (prec : Option ContractPrecision) (A : FVec Ideal ⟨2, ![K, M]⟩ φ₁) (B : FVec Ideal ⟨2, ![N, K]⟩ φ₂)
    (a : Fin M) (b : Fin N) :
    matmul (F := Ideal) d prec A B (constant ⟨2, ![M, N]⟩ .f32 0x00000000#32) (ix2 a b)
      = ∑ c : Fin K, A (ix2 c a) * B (ix2 b c) := by
  have hr : d.contr.rank = 1 := by rw [d.rank_contr, hlc]; rfl
  have hs : d.contr.size ⟨0, by omega⟩ = K := by
    rw [d.size_contr 0 (by rw [hlc]; exact Nat.one_pos)]; simp [hlc]
  show FloatOps.matmul _ prec A B _ (ix2 a b) = _
  rw [Ideal.matmul_constant_zero_apply, ← Equiv.sum_comp (contrEquiv1 d K hr hs).symm]
  refine Finset.sum_congr rfl fun c _ => ?_
  have c2 := contrEquiv1_symm_val d K hr hs c
  have l1 := lhsIdx_val_non d hlb hln (ix2 a b) ((contrEquiv1 d K hr hs).symm c) Nat.zero_lt_two
  have l0 := (d.lhsIdx_val_of_single hlc (ix2 a b) ((contrEquiv1 d K hr hs).symm c)).trans c2
  have r1 := (d.rhsIdx_val_of_single hrc (ix2 a b) ((contrEquiv1 d K hr hs).symm c)).trans c2
  have r0 := rhsIdx_val_non d hlb hrb hln hrn (ix2 a b) ((contrEquiv1 d K hr hs).symm c) Nat.one_lt_two
  have l2 : d.lhsIdx (ix2 a b) ((contrEquiv1 d K hr hs).symm c) = ix2 c a := by
    funext ax; apply Fin.ext
    match ax with
    | ⟨0, _⟩ => exact l0
    | ⟨1, _⟩ => exact l1
  have r2 : d.rhsIdx (ix2 a b) ((contrEquiv1 d K hr hs).symm c) = ix2 b c := by
    funext ax; apply Fin.ext
    match ax with
    | ⟨0, _⟩ => exact r0
    | ⟨1, _⟩ => exact r1
  rw [l2, r2]

/-- Both operands contracted on their first axis: a `K × M` by a `K × N` operand. -/
theorem matmul_00_zero_apply {M K N : Nat} {φ₁ φ₂ : FTy} (d : DotDims ⟨2, ![K, M]⟩ ⟨2, ![K, N]⟩ ⟨2, ![M, N]⟩)
    (hlc : d.lhsContracting = [0]) (hrc : d.rhsContracting = [0]) (hln : d.lhsNonContracting = [1])
    (hrn : d.rhsNonContracting = [1]) (hlb : d.lhsBatch = []) (hrb : d.rhsBatch = [])
    (prec : Option ContractPrecision) (A : FVec Ideal ⟨2, ![K, M]⟩ φ₁) (B : FVec Ideal ⟨2, ![K, N]⟩ φ₂)
    (a : Fin M) (b : Fin N) :
    matmul (F := Ideal) d prec A B (constant ⟨2, ![M, N]⟩ .f32 0x00000000#32) (ix2 a b)
      = ∑ c : Fin K, A (ix2 c a) * B (ix2 c b) := by
  have hr : d.contr.rank = 1 := by rw [d.rank_contr, hlc]; rfl
  have hs : d.contr.size ⟨0, by omega⟩ = K := by
    rw [d.size_contr 0 (by rw [hlc]; exact Nat.one_pos)]; simp [hlc]
  show FloatOps.matmul _ prec A B _ (ix2 a b) = _
  rw [Ideal.matmul_constant_zero_apply, ← Equiv.sum_comp (contrEquiv1 d K hr hs).symm]
  refine Finset.sum_congr rfl fun c _ => ?_
  have c2 := contrEquiv1_symm_val d K hr hs c
  have l1 := lhsIdx_val_non d hlb hln (ix2 a b) ((contrEquiv1 d K hr hs).symm c) Nat.zero_lt_two
  have l0 := (d.lhsIdx_val_of_single hlc (ix2 a b) ((contrEquiv1 d K hr hs).symm c)).trans c2
  have r0 := (d.rhsIdx_val_of_single hrc (ix2 a b) ((contrEquiv1 d K hr hs).symm c)).trans c2
  have r1 := rhsIdx_val_non d hlb hrb hln hrn (ix2 a b) ((contrEquiv1 d K hr hs).symm c) Nat.one_lt_two
  have l2 : d.lhsIdx (ix2 a b) ((contrEquiv1 d K hr hs).symm c) = ix2 c a := by
    funext ax; apply Fin.ext
    match ax with
    | ⟨0, _⟩ => exact l0
    | ⟨1, _⟩ => exact l1
  have r2 : d.rhsIdx (ix2 a b) ((contrEquiv1 d K hr hs).symm c) = ix2 c b := by
    funext ax; apply Fin.ext
    match ax with
    | ⟨0, _⟩ => exact r0
    | ⟨1, _⟩ => exact r1
  rw [l2, r2]

end Cert.LibDot

end
-- ==== Proof.LibDotRows.lean ====
/-
  A matrix product with ONE contracted axis and no batch axis in which BOTH operands are contracted on their LAST axis:
  an `M × K` left operand against an `N × K` right operand. The right operand's ROWS are the output's columns, so the
  product is "left times right transposed" with no transpose ever formed. With the accumulator the zero constant, entry
  (a, b) is the sum over the contracted coordinate `c` of `A (a, c) * B (b, c)`, at the ideal values, for any dimension
  numbers record whose axis lists are the stated ones (a printed record satisfies each hypothesis by `rfl`).
  This is the fourth arrangement beside the three of the module it imports (rows by columns, and the two with the left
  operand contracted on its first axis); it rests on that module's two lemmas on the non-contracting axes.
-/
import proofs.«119907_j29205777612937_1_alg».proof.Proof.LibDot

noncomputable section

open scoped BigOperators

namespace Cert.LibDotRows

open Idealize.ShloMosaic Idealize.ShloMosaic.ValueIdx Cert.LibDot

/-- Both operands contracted on their last axis: an `M × K` by an `N × K` operand. Entry (a, b) pairs row `a` of the left
    operand with row `b` of the right one. -/
theorem matmul_11_zero_apply {M K N : Nat} {φ₁ φ₂ : FTy} (d : DotDims ⟨2, ![M, K]⟩ ⟨2, ![N, K]⟩ ⟨2, ![M, N]⟩)
    (hlc : d.lhsContracting = [1]) (hrc : d.rhsContracting = [1]) (hln : d.lhsNonContracting = [0])
    (hrn : d.rhsNonContracting = [0]) (hlb : d.lhsBatch = []) (hrb : d.rhsBatch = [])
    (prec : Option ContractPrecision) (A : FVec Ideal ⟨2, ![M, K]⟩ φ₁) (B : FVec Ideal ⟨2, ![N, K]⟩ φ₂)
    (a : Fin M) (b : Fin N) :
    matmul (F := Ideal) d prec A B (constant ⟨2, ![M, N]⟩ .f32 0x00000000#32) (ix2 a b)
      = ∑ c : Fin K, A (ix2 a c) * B (ix2 b c) := by
  have hr : d.contr.rank = 1 := by rw [d.rank_contr, hlc]; rfl
  have hs : d.contr.size ⟨0, by omega⟩ = K := by
    rw [d.size_contr 0 (by rw [hlc]; exact Nat.one_pos)]; simp [hlc]
  show FloatOps.matmul _ prec A B _ (ix2 a b) = _
  rw [Ideal.matmul_constant_zero_apply, ← Equiv.sum_comp (contrEquiv1 d K hr hs).symm]
  refine Finset.sum_congr rfl fun c _ => ?_
  -- the contracted coordinate sits on axis 1 of each operand; axis 0 of each reads the output index
  have c2 := contrEquiv1_symm_val d K hr hs c
  have l0 := lhsIdx_val_non d hlb hln (ix2 a b) ((contrEquiv1 d K hr hs).symm c) Nat.zero_lt_two
  have l1 := (d.lhsIdx_val_of_single hlc (ix2 a b) ((contrEquiv1 d K hr hs).symm c)).trans c2
  have r0 := rhsIdx_val_non d hlb hrb hln hrn (ix2 a b) ((contrEquiv1 d K hr hs).symm c) Nat.one_lt_two
  have r1 := (d.rhsIdx_val_of_single hrc (ix2 a b) ((contrEquiv1 d K hr hs).symm c)).trans c2
  have l2 : d.lhsIdx (ix2 a b) ((contrEquiv1 d K hr hs).symm c) = ix2 a c := by
    funext ax; apply Fin.ext
    match ax with
    | ⟨0, _⟩ => exact l0
    | ⟨1, _⟩ => exact l1
  have r2 : d.rhsIdx (ix2 a b) ((contrEquiv1 d K hr hs).symm c) = ix2 b c := by
    funext ax; apply Fin.ext
    match ax with
    | ⟨0, _⟩ => exact r0
    | ⟨1, _⟩ => exact r1
  rw [l2, r2]

end Cert.LibDotRows

end
-- ==== Proof.KernelBlock.lean ====
/-
  What the kernel body stores, entry by entry.

  At a grid point the body loads a [512, 4096] block of the activations, a [1024, 4096] block of the binarized weights and
  a [1, 1024] block of the binarized bias row, multiplies the first two contracting the last axis of both into a zero
  accumulator, and adds the bias row broadcast down the 512 rows. So entry (p, q) of the [512, 1024] value it stores is

      ∑ k, xblk (p, k) * wblk (q, k)  +  bblk (0, q).
-/
import proofs.«119907_j29205777612937_1_alg».proof.Proof.Gen.KernelIdeal.Skeleton
import proofs.«119907_j29205777612937_1_alg».proof.Proof.LibDotRows
import Idealize.ShloMosaic.Lib.Pipeline.Value
import Idealize.ShloMosaic.Lib.ValueIdx

noncomputable section

open scoped BigOperators

namespace Cert.SignLinear.Kern

open Idealize.ShloMosaic Idealize.ShloMosaic.ValueIdx
open Cert.KernelIdeal Cert.KernelIdeal.Gen

/-- The bias row broadcast down the rows reads, at (p, q), the row's entry (0, q). -/
theorem bias_row_apply (v : FVec Ideal S1x1024 .f32) (p : Fin 512) (q : Fin 1024) :
    broadcastTo S512x1024 v broadcasts_S1x1024_S512x1024 (ix2 p q) = v (ix2 (0 : Fin 1) q) :=
  broadcastTo_apply v broadcasts_S1x1024_S512x1024 (ix2 p q) (ix2 (0 : Fin 1) q) (fun a => by
    match a with
    | ⟨0, _⟩ => show (0 : Nat) = if (1 : Nat) = 1 then 0 else _; rw [if_pos rfl]
    | ⟨1, _⟩ => show q.val = if (1024 : Nat) = 1 then 0 else q.val; rw [if_neg (by decide)])

/-- Entry (p, q) of the stored value: row `p` of the activation block against row `q` of the weight block, plus the
    bias row at `q`. -/
theorem stored_apply (x0 : Vec Ideal S512x4096 .bf16) (x1 : Vec Ideal S1024x4096 .bf16) (x2 : Vec Ideal S1x1024 .f32)
    (p : Fin 512) (q : Fin 1024) :
    k0_pay1 (F := Ideal) x0 x1 x2 (ix2 p q)
      = (∑ k : Fin 4096, x0 (ix2 p k) * x1 (ix2 q k)) + x2 (ix2 (0 : Fin 1) q) := by
  unfold k0_pay1
  rw [shapeCast_self, shapeCast_self, shapeCast_self, addf_apply, bias_row_apply,
    Cert.LibDotRows.matmul_11_zero_apply (M := 512) (K := 4096) (N := 1024)
      dot_S512x4096_S1024x4096_S512x1024_1_1_0_0_n_n rfl rfl rfl rfl rfl rfl]

end Cert.SignLinear.Kern

end
-- ==== Proof.KernelValue.lean ====
/-
  The kernel computes the specification.

  The grid has 16 × 4 points; point (g, h) works on rows 512 g … 512 g + 511 of the activations, on rows
  1024 h … 1024 h + 1023 of the binarized weights and on entries 1024 h … of the bias row, and writes back block (g, h)
  of the [8192, 4096] result. Before the region the host binarizes the weights and the bias and narrows two arrays to a
  shorter float format, which changes nothing on the extended reals. So:

   * each window's block, read at a local index, is the argument array (binarized where the host did so) at the global
     index "block index × block extent + local index";
   * entry (p, q) of what point (g, h) writes back is the specification's entry (512 g + p, 1024 h + q): the body's
     row-against-row sum is over the full contracted axis, which no block splits;
   * the 64 blocks tile the result, so the array ends holding the specification everywhere.
-/
import proofs.«119907_j29205777612937_1_alg».proof.Proof.Gen.KernelIdeal.Value
import proofs.«119907_j29205777612937_1_alg».proof.Proof.KernelBlock
import proofs.«119907_j29205777612937_1_alg».proof.Proof.Spec
import Idealize.ShloMosaic.Lib.Pipeline.Value
import Idealize.ShloMosaic.Lib.StableHlo.Run
import Idealize.ShloMosaic.Lib.Tactic

noncomputable section

open scoped BigOperators

namespace Cert.SignLinear.Kern

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.Value Cert.SignLinear

variable (m : (ℓ : Loc nD τ sig) → Buf (Elt Ideal) ℓ) (ρ : Dev nD → PrngReg)

theorem hz : (![0, 0] : Fin 2 → Nat) = fun _ => 0 := funext fun a => by fin_cases a <;> rfl

/-! ## The three staged arrays as the region finds them -/

/-- The activations: narrowed to a shorter format, which is the identity on extended reals. -/
theorem acts_at_entry (c : Dev nD) :
    (V m c main_v4 : S8192x4096.Idx → EReal) = m ((c : Thread nD τ).loc main_arg0) := by
  dsimp only [V, hostOps0]; after_results; rfl

/-- The weights: binarized, then narrowed. -/
theorem weights_at_entry (c : Dev nD) :
    (V m c main_v1 : S4096x4096.Idx → EReal) = fun i => Ideal.sign (m ((c : Thread nD τ).loc main_arg1) i) := by
  dsimp only [V, hostOps0]; after_results; rfl

/-- The bias: binarized, then given a unit leading axis. -/
theorem bias_at_entry (c : Dev nD) :
    (V m c main_v3 : S1x4096.Idx → EReal)
      = broadcastInDim S1x4096 ![1] bcast_S4096_S1x4096_1
          (fun i => Ideal.sign (m ((c : Thread nD τ).loc main_arg2) i) : S4096.Idx → EReal) := by
  dsimp only [V, hostOps0]; after_results; rfl

/-- The bias row at (0, o) is the binarized bias at `o`. -/
theorem bias_at_entry_apply (c : Dev nD) (i : S1x4096.Idx) (o : Fin 4096) (ho : (i 1).val = o.val) :
    (V m c main_v3 : S1x4096.Idx → EReal) i = Ideal.sign (m ((c : Thread nD τ).loc main_arg2) (ix1 o)) := by
  rw [bias_at_entry]
  exact broadcastInDim_apply _ bcast_S4096_S1x4096_1 _ i (ix1 o) (fun a => by
    match a with
    | ⟨0, _⟩ => show o.val = if (4096 : Nat) = 1 then 0 else (i 1).val; rw [if_neg (by decide), ho])

/-! ## The index maps, decided over the 64 points -/

/-- The activation window follows the output's block row and the weight and bias windows its block column; the other
    block index of each is 0; the output's block indices stay in the 16 × 4 box. -/
theorem index_facts : ∀ t : Fin cfg0.N,
    win0_0.index t (0 : Fin 2) = win0_3.index t (0 : Fin 2) ∧ win0_0.index t (1 : Fin 2) = 0
    ∧ win0_1.index t (0 : Fin 2) = win0_3.index t (1 : Fin 2) ∧ win0_1.index t (1 : Fin 2) = 0
    ∧ win0_2.index t (0 : Fin 2) = 0 ∧ win0_2.index t (1 : Fin 2) = win0_3.index t (1 : Fin 2)
    ∧ win0_3.index t (0 : Fin 2) < 16 ∧ win0_3.index t (1 : Fin 2) < 4 :=
  (by decide +kernel : ∀ t : Fin grid0.N, _)

/-- Every block of the 16 × 4 box is some point's. -/
theorem index_onto : ∀ (g : Fin 16) (h : Fin 4), ∃ t : Fin cfg0.N, win0_3.index t = ![g.val, h.val] :=
  (by decide +kernel : ∀ (g : Fin 16) (h : Fin 4), ∃ t : Fin grid0.N, win0_3.index t = ![g.val, h.val])

/-! ## Each window's block read at a local index -/

/-- Row `p` of the activation block at point `t` is row "block row × 512 + p" of the activations. -/
theorem acts_block_apply (c : Dev nD) (t : Fin cfg0.N) (p : Fin 512) (k : Fin 4096) (n : Fin 8192)
    (hn : n.val = win0_0.index t (0 : Fin 2) * 512 + p.val) (h1 : win0_0.index t (1 : Fin 2) = 0) :
    (iblk m c 0 t : Vec Ideal S512x4096 .bf16) (ix2 p k)
      = (m ((c : Thread nD τ).loc main_arg0) : S8192x4096.Idx → EReal) (ix2 n k) := by
  unfold iblk
  rw [View.read_apply]
  show (V m c main_v4 : S8192x4096.Idx → EReal) _ = _
  rw [acts_at_entry]
  refine congrArg _ (funext fun a => Fin.ext ?_)
  match a with
  | ⟨0, _⟩ => show win0_0.index t (0 : Fin 2) * 512 + 1 * p.val = n.val; omega
  | ⟨1, _⟩ => show win0_0.index t (1 : Fin 2) * 4096 + 1 * k.val = k.val; omega

/-- Row `q` of the weight block at point `t` is row "block column × 1024 + q" of the binarized weights. -/
theorem weights_block_apply (c : Dev nD) (t : Fin cfg0.N) (q : Fin 1024) (k : Fin 4096) (o : Fin 4096)
    (ho : o.val = win0_1.index t (0 : Fin 2) * 1024 + q.val) (h1 : win0_1.index t (1 : Fin 2) = 0) :
    (iblk m c 1 t : Vec Ideal S1024x4096 .bf16) (ix2 q k)
      = Ideal.sign ((m ((c : Thread nD τ).loc main_arg1) : S4096x4096.Idx → EReal) (ix2 o k)) := by
  unfold iblk
  rw [View.read_apply]
  show (V m c main_v1 : S4096x4096.Idx → EReal) _ = _
  rw [weights_at_entry]
  refine congrArg (fun i => Ideal.sign ((m ((c : Thread nD τ).loc main_arg1) : S4096x4096.Idx → EReal) i))
    (funext fun a => Fin.ext ?_)
  match a with
  | ⟨0, _⟩ => show win0_1.index t (0 : Fin 2) * 1024 + 1 * q.val = o.val; omega
  | ⟨1, _⟩ => show win0_1.index t (1 : Fin 2) * 4096 + 1 * k.val = k.val; omega

/-- Entry (0, q) of the bias block at point `t` is the binarized bias at "block column × 1024 + q". -/
theorem bias_block_apply (c : Dev nD) (t : Fin cfg0.N) (q : Fin 1024) (o : Fin 4096)
    (ho : o.val = win0_2.index t (1 : Fin 2) * 1024 + q.val) :
    (iblk m c 2 t : Vec Ideal S1x1024 .f32) (ix2 (0 : Fin 1) q)
      = Ideal.sign ((m ((c : Thread nD τ).loc main_arg2) : S4096.Idx → EReal) (ix1 o)) := by
  unfold iblk
  rw [View.read_apply]
  show (V m c main_v3 : S1x4096.Idx → EReal) _ = _
  refine bias_at_entry_apply m c _ o ?_
  show win0_2.index t (1 : Fin 2) * 1024 + 1 * q.val = o.val
  omega

/-! ## What a point writes back -/

/-- Point `t` writes back block `t` of the specification of the three argument arrays. -/
theorem flushed_eq (c : Dev nD) (t : Fin cfg0.N) :
    (dats m 0 c).flushed 3 t = ((cfg0.win 3).blk t).view.read (Elt Ideal)
      (result (m ((c : Thread nD τ).loc main_arg0)) (m ((c : Thread nD τ).loc main_arg1)) (m ((c : Thread nD τ).loc main_arg2))) := by
  rw [flushed3]
  unfold out0_3
  rw [View.canon_unit_zero hz]
  simp only [View.ld_unit_zero (S := S512x4096) hz, View.ld_unit_zero (S := S1024x4096) hz, View.ld_unit_zero (S := S1x1024) hz]
  obtain ⟨e00, e01, e10, e11, e20, e21, b0, b1⟩ := index_facts t
  funext j
  obtain ⟨p, q, rfl⟩ : ∃ (p : Fin 512) (q : Fin 1024), j = ix2 p q := ⟨j 0, j 1, eq_ix2 j⟩
  have hp := p.isLt
  have hq := q.isLt
  show k0_pay1 (F := Ideal) (iblk m c 0 t) (iblk m c 1 t) (iblk m c 2 t) (ix2 p q)
      = result _ _ _ (((cfg0.win 3).blk t).view.emb (ix2 p q))
  refine (stored_apply (iblk m c 0 t) (iblk m c 1 t) (iblk m c 2 t) p q).trans ?_
  -- the global row and column of the entry: block index × block extent + local coordinate
  obtain ⟨n, hn⟩ : ∃ n : Fin 8192, n.val = win0_3.index t (0 : Fin 2) * 512 + p.val := ⟨⟨_, by omega⟩, rfl⟩
  obtain ⟨o, ho⟩ : ∃ o : Fin 4096, o.val = win0_3.index t (1 : Fin 2) * 1024 + q.val := ⟨⟨_, by omega⟩, rfl⟩
  rw [result_apply _ _ _ _ n o
    (by show win0_3.index t (0 : Fin 2) * 512 + 1 * p.val = _; omega)
    (by show win0_3.index t (1 : Fin 2) * 1024 + 1 * q.val = _; omega)]
  unfold entry
  congr 1
  · refine Finset.sum_congr rfl fun k _ => ?_
    rw [acts_block_apply m c t p k n (by omega) e01, weights_block_apply m c t q k o (by omega) e11]
  · exact bias_block_apply m c t q o (by omega)

/-! ## The blocks tile the result -/

/-- An index is in point `t`'s block iff each coordinate is in the block's range on its axis. -/
theorem mem_block (t : Fin cfg0.N) (i : S8192x4096.Idx) :
    i ∈ ((cfg0.win 3).blk t).view.set ↔ ∀ a : Fin 2, win0_3.index t a * S512x1024.size a ≤ (i a).val
      ∧ (i a).val < win0_3.index t a * S512x1024.size a + S512x1024.size a := by
  show i ∈ ((View.whole main_v5).slice (win0_3.rect t)).set ↔ _
  rw [View.set_slice_whole, Rect.mem_set_unit]
  exact Iff.rfl

/-- Every index of the result lies in the block of the point at block row `row / 512`, block column `column / 1024`. -/
theorem covered (i : S8192x4096.Idx) :
    ∃ t : Fin cfg0.N, (cfg0.win 3).flush t = true ∧ i ∈ ((cfg0.win 3).blk t).view.set := by
  have hi0 : (i 0).val < 8192 := (i 0).isLt
  have hi1 : (i 1).val < 4096 := (i 1).isLt
  obtain ⟨t, ht⟩ := index_onto ⟨(i 0).val / 512, by omega⟩ ⟨(i 1).val / 1024, by omega⟩
  have q0 : win0_3.index t (0 : Fin 2) = (i 0).val / 512 := congrFun ht 0
  have q1 : win0_3.index t (1 : Fin 2) = (i 1).val / 1024 := congrFun ht 1
  refine ⟨t, flush0_3 t, ?_⟩
  rw [mem_block]
  intro a
  match a with
  | ⟨0, _⟩ =>
    show win0_3.index t (0 : Fin 2) * 512 ≤ (i 0).val ∧ (i 0).val < win0_3.index t (0 : Fin 2) * 512 + 512
    omega
  | ⟨1, _⟩ =>
    show win0_3.index t (1 : Fin 2) * 1024 ≤ (i 1).val ∧ (i 1).val < win0_3.index t (1 : Fin 2) * 1024 + 1024
    omega

/-! ## The result array, and the run -/

/-- After the run the result array is the specification of the argument arrays. -/
theorem final (c : Dev nD) : (dats m 0 c).arrAt 3 cfg0.N
    = result (m ((c : Thread nD τ).loc main_arg0)) (m ((c : Thread nD τ).loc main_arg1)) (m ((c : Thread nD τ).loc main_arg2)) :=
  (dats m 0 c).arrAt_eq_of_cover 3 _ (fun t _ => flushed_eq m c t) covered

/-- Every weakly fair execution of the kernel's program ends with the result array at the specification and the
    arguments unchanged. -/
theorem run : θ_run defs (onTc (τ := τ) (main (F := Ideal))) ⟨m, fun _ => 0, ρ⟩ fun r => ∀ c : Dev nD,
      r.2.mem ((c : Thread nD τ).loc main_v5)
        = result (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (run_blocks m ρ)

end Cert.SignLinear.Kern

end
-- ==== Proof.lean ====
/-
  A binarized linear layer: the kernel computes `x · sign(w)ᵀ + sign(b)` for `x` of shape [8192, 4096], `w` of shape
  [4096, 4096] and `b` of shape [4096], block by block over a 16 × 4 grid; the reference computes the same with one
  contraction over the last axis of both operands and a broadcast bias.

  Over the extended reals both are the function `Cert.SignLinear.result` (Proof/Spec.lean): entry (n, o) is
  `∑ k, x (n, k) * sign (w (o, k)) + sign (b o)`. The kernel narrows `x` and `sign w` to a shorter float format before
  multiplying, which is the identity on extended reals, and accumulates into zero; each grid point contracts over the
  WHOLE last axis, so no sum is split or reordered and the two sides agree term for term: no algebraic law is used and the
  finiteness of the inputs is never opened.

  Proof/RefValue.lean: the reference is the specification. Proof/KernelBlock.lean: the value the kernel body stores, entry
  by entry (the contraction of both operands on their last axis is Proof/LibDotRows.lean, over Proof/LibDot.lean).
  Proof/KernelValue.lean: the blocks a point reads and writes, the tiling of the result, and the kernel's run. No
  operation of the kernel is rewritten when it is read over the extended reals, so `preserves` has no conjunct to prove.
-/
import proofs.«119907_j29205777612937_1_alg».proof.Defs
import proofs.«119907_j29205777612937_1_alg».proof.Proof.Gen.Kernel
import proofs.«119907_j29205777612937_1_alg».proof.Proof.Gen.Kernel.Skeleton
import proofs.«119907_j29205777612937_1_alg».proof.Proof.Gen.Kernel.Launch
import proofs.«119907_j29205777612937_1_alg».proof.Proof.Gen.Kernel.Points
import proofs.«119907_j29205777612937_1_alg».proof.Proof.Gen.Kernel.Frame
import proofs.«119907_j29205777612937_1_alg».proof.Proof.Gen.KernelIdeal
import proofs.«119907_j29205777612937_1_alg».proof.Proof.Gen.KernelIdeal.Skeleton
import proofs.«119907_j29205777612937_1_alg».proof.Proof.Gen.KernelIdeal.Launch
import proofs.«119907_j29205777612937_1_alg».proof.Proof.Gen.KernelIdeal.Points
import proofs.«119907_j29205777612937_1_alg».proof.Proof.Gen.KernelIdeal.Frame
import proofs.«119907_j29205777612937_1_alg».proof.Proof.Gen.ReferenceIdeal
import proofs.«119907_j29205777612937_1_alg».proof.Proof.Gen.Pre_finite_inputs
import proofs.«119907_j29205777612937_1_alg».proof.Proof.Gen.KernelIdeal.Value
import proofs.«119907_j29205777612937_1_alg».proof.Proof.Gen.ReferenceIdeal.Run
import proofs.«119907_j29205777612937_1_alg».proof.Proof.Gen.ReferenceIdeal.Read
import proofs.«119907_j29205777612937_1_alg».proof.Proof.RefValue
import proofs.«119907_j29205777612937_1_alg».proof.Proof.KernelValue
import Idealize.ShloMosaic.Adequacy
import Idealize.ShloMosaic.Init

noncomputable section

namespace Cert.Proof

open Idealize.ShloMosaic Idealize.ShloMosaic.TcCoe Idealize.SL.Sem

/-- The word-level kernel runs and leaves its arguments unchanged. -/
theorem frame_kernel : Cert.frame_Kernel := fun m ρ _ => Cert.Kernel.Gen.frame m ρ

/-- So does the kernel read over the extended reals. -/
theorem frame_kernel_ideal : Cert.frame_KernelIdeal := fun m ρ _ => Cert.KernelIdeal.Gen.frame m ρ

/-- The reference's run, with the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- Both programs, from memories that agree on the three arguments, end with the result array at the specification of
    those arguments. -/
theorem algebraic : Cert.algebraic_KernelIdeal_ReferenceIdeal := by
  intro m ρ m' ρ' _ hagree
  refine ⟨fun c => Cert.SignLinear.result
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    Cert.SignLinear.Kern.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v5_eq, Cert.SignLinear.Ref.reference_eq,
    (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, trivial, algebraic⟩

end Cert.Proof

end
